-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S1000x4096 : Shape := ⟨2, ![1000, 4096]⟩
abbrev S1000 : Shape := ⟨1, ![1000]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S1000x4096 : S_.BroadcastsInDim S1000x4096 (![] : Fin 0 → Fin S1000x4096.rank)
  reducesTo_S1000x4096_S_d0_1 : S1000x4096.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg4 : FVec F S1000 .f32) (main_v13 : IVec S_ 1) (main_v16 : IVec S1000x4096 1) : IVec S_ 1 :=
  let main_c_5 : IVec S_ 1 := constantI S_ 1 1#1
  let main_v17 : IVec S_ 1 := (fun x v => Host.reduce IntOp.andi x v reducesTo_S1000x4096_S_d0_1 h_S_) main_v16 main_c_5
  let main_v18 : IVec S_ 1 := andi main_v13 main_v17
  let main_v19 : FVec F S1000 .f32 := Host.absf main_arg4
  let main_cst_6 : FVec F S_ .f32 := constant S_ .f32 0x7F800000#32
  let main_v20 : FVec F S1000 .f32 := broadcastInDim S1000 ![] bcast_S_S1000 main_cst_6
  let main_v21 : IVec S1000 1 := cmpf .olt main_v19 main_v20
  let main_c_7 : IVec S_ 1 := constantI S_ 1 1#1
  let main_v22 : IVec S_ 1 := (fun x v => Host.reduce IntOp.andi x v reducesTo_S1000_S_d0 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096 .f32) (main_arg3 : FVec F S1000x4096 .f32) (main_arg4 : FVec F S1000 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1000x4096 .f32 := Host.absf main_arg3
  let main_cst_4 : FVec F S_ .f32 := constant S_ .f32 0x7F800000#32
  let main_v15 : FVec F S1000x4096 .f32 := broadcastInDim S1000x4096 ![] bcast_S_S1000x4096 main_cst_4
  let main_v16 : IVec S1000x4096 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1000x4096 : Shape := ⟨2, ![1000, 4096]⟩
abbrev S1000 : Shape := ⟨1, ![1000]⟩
abbrev S1x4096 : Shape := ⟨2, ![1, 4096]⟩
abbrev S_ : Shape := ⟨0, ![]⟩
abbrev S1024x4096 : Shape := ⟨2, ![1024, 4096]⟩
abbrev S1024 : Shape := ⟨1, ![1024]⟩
abbrev S1x1024 : Shape := ⟨2, ![1, 1024]⟩
abbrev S128x4096 : Shape := ⟨2, ![128, 4096]⟩
abbrev S8192x1000 : Shape := ⟨2, ![8192, 1000]⟩
abbrev S512x4096 : Shape := ⟨2, ![512, 4096]⟩
abbrev S512x1000 : Shape := ⟨2, ![512, 1000]⟩
abbrev S512x1024 : Shape := ⟨2, ![512, 1024]⟩
abbrev S512 : Shape := ⟨1, ![512]⟩
abbrev S512x1 : Shape := ⟨2, ![512, 1]⟩

abbrev nBuf : Space → Nat
  | .hbm => 17
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1000x4096, .f32⟩
  | .hbm, ⟨4, _⟩ => ⟨S1000, .f32⟩
  | .hbm, ⟨5, _⟩ => ⟨S4096x4096, .bf16⟩
  | .hbm, ⟨6, _⟩ => ⟨S1x4096, .f32⟩
  | .hbm, ⟨7, _⟩ => ⟨S_, .i32⟩
  | .hbm, ⟨8, _⟩ => ⟨S_, .f32⟩
  | .hbm, ⟨9, _⟩ => ⟨S1024x4096, .f32⟩
  | .hbm, ⟨10, _⟩ => ⟨S1024x4096, .bf16⟩
  | .hbm, ⟨11, _⟩ => ⟨S_, .i32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S8192x4096, .bf16⟩
  | .hbm, ⟨16, _⟩ => ⟨S8192x1000, .f32⟩
  | .local _ .vmem, ⟨0, _⟩ => ⟨S128x4096, .f32⟩
  | .local _ .vmem, ⟨1, _⟩ => ⟨S128x4096, .f32⟩
  | .local _ .vmem, ⟨2, _⟩ => ⟨S4096x4096, .bf16⟩
  | .local _ .vmem, ⟨3, _⟩ => ⟨S1x4096, .f32⟩
  | .local _ .vmem, ⟨4, _⟩ => ⟨S128x4096, .bf16⟩
  | .local _ .vmem, ⟨5, _⟩ => ⟨S128x4096, .bf16⟩
  | .local _ .vmem, ⟨6, _⟩ => ⟨S512x4096, .bf16⟩
  | .local _ .vmem, ⟨7, _⟩ => ⟨S512x4096, .bf16⟩
  | .local _ .vmem, ⟨8, _⟩ => ⟨S1024x4096, .bf16⟩
  | .local _ .vmem, ⟨9, _⟩ => ⟨S1x1024, .f32⟩
  | .local _ .vmem, ⟨10, _⟩ => ⟨S512x1000, .f32⟩
  | .local _ .vmem, ⟨11, _⟩ => ⟨S512x1000, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  shapeCasts_S4096_S1x4096 : S4096.ShapeCasts S1x4096
  pads_S1000x4096_S1024x4096_0240_000 : S1000x4096.Pads (![0, 0] : Fin 2 → Nat) ![24, 0] ![0, 0] S1024x4096
  h_S_ : 0 < S_.numel
  pads_S1000_S1024_0240 : S1000.Pads (![0] : Fin 1 → Nat) ![24] ![0] S1024
  shapeCasts_S1024_S1x1024 : S1024.ShapeCasts S1x1024
  inb_S128x4096_S128x4096_0_0 : ∀ a, (![0, 0] : Fin 2 → Nat) a + S128x4096.size a ≤ S128x4096.size a
  h_S128x4096 : 0 < S128x4096.numel
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  packedbf16_S128x4096_S128x4096_0_0 : (Rect.unit (s := S128x4096) ![0, 0] S128x4096.size inb_S128x4096_S128x4096_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  iota_S512x1024_d1_w32 : S512x1024.Iotas .tc 32 [1]
  reduces_S512x1024_S512 : S512x1024.Reduces [1] S512
  shapeCasts_S512_S512x1 : S512.ShapeCasts S512x1
  broadcasts_S512x1_S512x1024 : S512x1.Broadcasts S512x1024
  slices_S512x1024_o0_0_S512x1000 : S512x1024.Slices ![0, 0] S512x1000
  inb_S512x1000_S512x1000_0_0 : ∀ a, (![0, 0] : Fin 2 → Nat) a + S512x1000.size a ≤ S512x1000.size a
  h_S512x1000 : 0 < S512x1000.numel
  dot_S128x4096_S4096x4096_S128x4096_1_1_0_0_n_n_wf : DotDims.WF S128x4096 S4096x4096 S128x4096 [1] [1] [0] [0] [] []
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S8192x4096.size a
  hwx0_3 : ∀ i : grid0.Coords, EltTy.bits .bf16 = 32 ∨ (Rect.block (s := S8192x4096) S128x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .bf16 = 32 ∨ (Rect.block (s := S8192x4096) S512x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S1024x4096.size a
  hwx1_1 : ∀ i : grid1.Coords, EltTy.bits .bf16 = 32 ∨ (Rect.block (s := S1024x4096) S1024x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1000.size a ≤ S8192x1000.size a
  hwx1_3 : ∀ i : grid1.Coords, EltTy.bits .f32 = 32 ∨ (Rect.block (s := S8192x1000) S512x1000.size (cc1_transform_3 i) (hinb1_3 i)).WholeWords (EltTy.packing .f32)

variable [Facts₀]

def dot_S128x4096_S4096x4096_S128x4096_1_1_0_0_n_n : DotDims S128x4096 S4096x4096 S128x4096 where
  lhsContracting := [1]
  rhsContracting := [1]
  lhsNonContracting := [0]
  rhsNonContracting := [0]
  lhsBatch := []
  rhsBatch := []
  wf := dot_S128x4096_S4096x4096_S128x4096_1_1_0_0_n_n_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S512x1000.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1000x4096 : Shape := ⟨2, ![1000, 4096]⟩
abbrev S1000 : Shape := ⟨1, ![1000]⟩
abbrev S1x4096 : Shape := ⟨2, ![1, 4096]⟩
abbrev S_ : Shape := ⟨0, ![]⟩
abbrev S8192x1000 : Shape := ⟨2, ![8192, 1000]⟩
abbrev S1x1000 : Shape := ⟨2, ![1, 1000]⟩
abbrev S8192 : Shape := ⟨1, ![8192]⟩
abbrev S8192x1 : Shape := ⟨2, ![8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1000x4096, .f32⟩
  | .hbm, ⟨4, _⟩ => ⟨S1000, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x1000, .f32⟩
  | .hbm, ⟨13, _⟩ => ⟨S1x1000, .f32⟩
  | .hbm, ⟨14, _⟩ => ⟨S8192x1000, .f32⟩
  | .hbm, ⟨15, _⟩ => ⟨S8192x1000, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192x1, .f32⟩
  | .hbm, ⟨22, _⟩ => ⟨S8192x1000, .f32⟩
  | .hbm, ⟨23, _⟩ => ⟨S8192x1000, .f32⟩
  | .hbm, ⟨24, _⟩ => ⟨S8192x1000, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x1000, .f32⟩
  | .hbm, ⟨29, _⟩ => ⟨S8192x1000, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  bcast_S1000_S1x1000_1 : S1000.BroadcastsInDim S1x1000 (![1] : Fin 1 → Fin S1x1000.rank)
  bcast_S1x1000_S8192x1000_0_1 : S1x1000.BroadcastsInDim S8192x1000 (![0, 1] : Fin 2 → Fin S8192x1000.rank)
  reducesTo_S8192x1000_S8192_d1 : S8192x1000.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x1000_0_1 : S8192x1.BroadcastsInDim S8192x1000 (![0, 1] : Fin 2 → Fin S8192x1000.rank)
  dot_S8192x4096_S4096x4096_S8192x4096_1_1_0_0_n_n_wf : DotDims.WF S8192x4096 S4096x4096 S8192x4096 [1] [1] [0] [0] [] []
  dot_S8192x4096_S1000x4096_S8192x1000_1_1_0_0_n_n_wf : DotDims.WF S8192x4096 S1000x4096 S8192x1000 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf
def dot_S8192x4096_S1000x4096_S8192x1000_1_1_0_0_n_n : DotDims S8192x4096 S1000x4096 S8192x1000 where
  lhsContracting := [1]
  rhsContracting := [1]
  lhsNonContracting := [0]
  rhsNonContracting := [0]
  lhsBatch := []
  rhsBatch := []
  wf := dot_S8192x4096_S1000x4096_S8192x1000_1_1_0_0_n_n_wf

class Facts : Prop extends Facts₀ where

variable [Facts]
-- ==== Proof.KernelBody.lean ====
import proofs.«419465_j6064493822319_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

/-!
# The two kernel bodies read at an index, over the extended reals

Layer 1's body stores, at row `p` and column `j` of its block, `max (∑ₖ x[p,k]·w[j,k] + b[0,j]) 0`.
Layer 2's body computes on 1024 lanes: lane `c` of row `p` holds the logit `∑ₖ h[p,k]·w[c,k] + b[0,c]` when
`c < 1000` and the named fill (the bottom element) otherwise; the row's running maximum `M` over the 1024 lanes, the
exponentials `exp (lane − M)`, their sum `S` over the 1024 lanes, and the stored entry `exp (lane q − M) / S` for
`q < 1000`. Each operation that is not pointwise gets one lemma at a row and a lane.
-/

noncomputable section

namespace Cert.KernelIdeal.Body

open Cert.KernelIdeal Cert.KernelIdeal.Gen Idealize.ShloMosaic Idealize.ShloMosaic.ValueIdx

/-! ## Layer 2: the contraction -/

theorem lhs2_0 (i : S512x1024.Idx) (q : dot_S512x4096_S1024x4096_S512x1024_1_1_0_0_n_n.contr.Idx) :
    (dot_S512x4096_S1024x4096_S512x1024_1_1_0_0_n_n.lhsIdx i q 0).val = (i 0).val := by
  unfold DotDims.lhsIdx
  rw [dif_neg (show ¬(0 : Fin S512x4096.rank) ∈ dot_S512x4096_S1024x4096_S512x1024_1_1_0_0_n_n.lhsBatch by decide), dif_pos (show (0 : Fin S512x4096.rank) ∈ dot_S512x4096_S1024x4096_S512x1024_1_1_0_0_n_n.lhsNonContracting by decide)]
  rfl
theorem lhs2_1 (i : S512x1024.Idx) (q : dot_S512x4096_S1024x4096_S512x1024_1_1_0_0_n_n.contr.Idx) :
    (dot_S512x4096_S1024x4096_S512x1024_1_1_0_0_n_n.lhsIdx i q 1).val = (q ⟨0, by decide⟩).val :=
  dot_S512x4096_S1024x4096_S512x1024_1_1_0_0_n_n.lhsIdx_val_of_single rfl i q
theorem rhs2_0 (i : S512x1024.Idx) (q : dot_S512x4096_S1024x4096_S512x1024_1_1_0_0_n_n.contr.Idx) :
    (dot_S512x4096_S1024x4096_S512x1024_1_1_0_0_n_n.rhsIdx i q 0).val = (i 1).val := by
  unfold DotDims.rhsIdx
  rw [dif_neg (show ¬(0 : Fin S1024x4096.rank) ∈ dot_S512x4096_S1024x4096_S512x1024_1_1_0_0_n_n.rhsBatch by decide), dif_pos (show (0 : Fin S1024x4096.rank) ∈ dot_S512x4096_S1024x4096_S512x1024_1_1_0_0_n_n.rhsNonContracting by decide)]
  rfl
theorem rhs2_1 (i : S512x1024.Idx) (q : dot_S512x4096_S1024x4096_S512x1024_1_1_0_0_n_n.contr.Idx) :
    (dot_S512x4096_S1024x4096_S512x1024_1_1_0_0_n_n.rhsIdx i q 1).val = (q ⟨0, by decide⟩).val :=
  dot_S512x4096_S1024x4096_S512x1024_1_1_0_0_n_n.rhsIdx_val_of_single rfl i q

/-- The product into a zero accumulator, at row `p` and lane `c`: the sum over the 4096 shared coordinates. -/
theorem contract2_apply (y0 : FVec Ideal S512x4096 .bf16) (y1 : FVec Ideal S1024x4096 .bf16) (p : Fin 512) (c : Fin 1024) :
    matmul dot_S512x4096_S1024x4096_S512x1024_1_1_0_0_n_n none y0 y1 (constant (F := Ideal) S512x1024 .f32 0x00000000#32) (ix2 p c)
      = ∑ k : Fin 4096, y0 (ix2 p k) * y1 (ix2 c k) := by
  show FloatOps.matmul dot_S512x4096_S1024x4096_S512x1024_1_1_0_0_n_n none y0 y1 (constant (F := Ideal) S512x1024 .f32 0x00000000#32) (ix2 p c) = _
  rw [Ideal.matmul_constant_zero_apply, ← Equiv.sum_comp (ValueIdx.contrEquiv1 dot_S512x4096_S1024x4096_S512x1024_1_1_0_0_n_n 4096 rfl rfl).symm]
  refine Finset.sum_congr rfl fun k _ => ?_
  have hk := ValueIdx.contrEquiv1_symm_val dot_S512x4096_S1024x4096_S512x1024_1_1_0_0_n_n 4096 rfl rfl k
  have el : dot_S512x4096_S1024x4096_S512x1024_1_1_0_0_n_n.lhsIdx (ix2 p c) ((ValueIdx.contrEquiv1 dot_S512x4096_S1024x4096_S512x1024_1_1_0_0_n_n 4096 rfl rfl).symm k) = ix2 p k := funext fun a => Fin.ext (by
    match a with
    | ⟨0, _⟩ => exact lhs2_0 _ _
    | ⟨1, _⟩ => exact (lhs2_1 _ _).trans hk)
  have er : dot_S512x4096_S1024x4096_S512x1024_1_1_0_0_n_n.rhsIdx (ix2 p c) ((ValueIdx.contrEquiv1 dot_S512x4096_S1024x4096_S512x1024_1_1_0_0_n_n 4096 rfl rfl).symm k) = ix2 c k := funext fun a => Fin.ext (by
    match a with
    | ⟨0, _⟩ => exact rhs2_0 _ _
    | ⟨1, _⟩ => exact (rhs2_1 _ _).trans hk)
  rw [el, er]

/-! ## Layer 2: the layout operations and the two row reductions -/

/-- The bias row spread down the 512 rows. -/
theorem biasRow2_apply (b : FVec Ideal S1x1024 .f32) (p : Fin 512) (c : Fin 1024) :
    broadcastTo S512x1024 b broadcasts_S1x1024_S512x1024 (ix2 p c) = b (ix2 0 c) :=
  broadcastTo_apply b broadcasts_S1x1024_S512x1024 (ix2 p c) (ix2 0 c) (fun a => match a with
    | ⟨0, _⟩ => by show 0 = if (1 : Nat) = 1 then 0 else p.val; rw [if_pos rfl]
    | ⟨1, _⟩ => by show c.val = if (1024 : Nat) = 1 then 0 else c.val; rw [if_neg (by decide)])

/-- A per-row value as a column, spread across the 1024 lanes. -/
theorem rowValue_apply (u : FVec Ideal S512 .f32) (p : Fin 512) (c : Fin 1024) :
    broadcastTo S512x1024 (shapeCast S512x1 u shapeCasts_S512_S512x1) broadcasts_S512x1_S512x1024 (ix2 p c) = u (ix1 p) := by
  rw [broadcastTo_apply (shapeCast S512x1 u shapeCasts_S512_S512x1) broadcasts_S512x1_S512x1024 (ix2 p c) (ix2 p 0) (fun a => match a with
    | ⟨0, _⟩ => by show p.val = if (512 : Nat) = 1 then 0 else p.val; rw [if_neg (by decide)]
    | ⟨1, _⟩ => by show 0 = if (1 : Nat) = 1 then 0 else c.val; rw [if_pos rfl])]
  exact shapeCast_apply u shapeCasts_S512_S512x1 (ix2 p 0) (ix1 p) (by
    show (S512.rowMajor (ix1 p)).val = (S512x1.rowMajor (ix2 p 0)).val
    rw [Shape.rowMajor_val_one, Shape.rowMajor_val_two]
    show p.val = p.val * 1 + 0
    omega)

/-- The row's running maximum over the 1024 lanes, from the accumulator's value. -/
theorem rowMax_apply (v : FVec Ideal S512x1024 .f32) (p : Fin 512) :
    multiReduction (F := Ideal) .maximumf [1] S512 v 0xFF800000#32 reduces_S512x1024_S512 (.inl rfl) rfl (ix1 p)
      = (Finset.univ : Finset (Fin 1024)).fold max (FloatOps.ofBits (F := Ideal) .f32 0xFF800000#32) (fun c => v (ix2 p c)) := by
  refine (Ideal.multiReduction_maximumf_single v 0xFF800000#32 reduces_S512x1024_S512 (.inl rfl) rfl (ix1 p)).trans ?_
  refine congrArg (fun f => (Finset.univ : Finset (Fin 1024)).fold max _ f) (funext fun c => ?_)
  exact congrArg v (funext fun a => Fin.ext (by match a with | ⟨0, _⟩ => rfl | ⟨1, _⟩ => rfl))

/-- The row's sum over the 1024 lanes. -/
theorem rowSum_apply (v : FVec Ideal S512x1024 .f32) (p : Fin 512) :
    multiReduction (F := Ideal) .add [1] S512 v 0x00000000#32 reduces_S512x1024_S512 (.inl rfl) rfl (ix1 p)
      = ∑ c : Fin 1024, v (ix2 p c) := by
  refine (Ideal.multiReduction_add_single v 0x00000000#32 reduces_S512x1024_S512 (.inl rfl) rfl (ix1 p)).trans ?_
  refine Finset.sum_congr rfl fun c _ => ?_
  exact congrArg v (funext fun a => Fin.ext (by match a with | ⟨0, _⟩ => rfl | ⟨1, _⟩ => rfl))

/-- The first 1000 lanes kept. -/
theorem lanes1000_apply (v : FVec Ideal S512x1024 .f32) (p : Fin 512) (q : Fin 1000) :
    extractStridedSlice S512x1000 ![0, 0] v slices_S512x1024_o0_0_S512x1000 (ix2 p q) = v (ix2 p (Fin.castLE (by decide) q)) :=
  extractStridedSlice_apply ![0, 0] v slices_S512x1024_o0_0_S512x1000 (ix2 p q) (ix2 p (Fin.castLE (by decide) q)) (fun a => match a with
    | ⟨0, _⟩ => by show p.val = 0 + p.val; omega
    | ⟨1, _⟩ => by show q.val = 0 + q.val; omega)

/-! ## Layer 2: the mask -/

/-- The named fill denotes the bottom element. -/
theorem fill_eq : Named.named (F := Ideal) κ "neg_big" (φ := .f32) 0xF149F2CA#32 = (⊥ : EReal) :=
  IdealRules.named_const.ideal_named_scalar _ _ _ _ rfl

/-- Lane `c`'s number is below 1000, as the one-bit word the comparison yields. -/
theorem lane_lt : ∀ c : Fin 1024, IntOp.cmpi .slt (BitVec.ofNat 32 c.val) 1000#32 = if c.val < 1000 then 1#1 else 0#1 := by
  decide +kernel

/-- A lane below 1000 keeps its value; the 24 lanes from 1000 on hold the fill. -/
theorem mask_apply (v : FVec Ideal S512x1024 .f32) (p : Fin 512) (c : Fin 1024) :
    select (cmpi .slt (iota .tc S512x1024 32 [1] iota_S512x1024_d1_w32) (broadcast S512x1024 (1000#32 : BitVec 32))) v
        (broadcast S512x1024 (Named.named (F := Ideal) κ "neg_big" (φ := .f32) 0xF149F2CA#32)) (ix2 p c)
      = if c.val < 1000 then v (ix2 p c) else (⊥ : EReal) := by
  rw [select_apply, broadcast_apply, fill_eq]
  show Scalar.select (IntOp.cmpi .slt (iota .tc S512x1024 32 [1] iota_S512x1024_d1_w32 (ix2 p c)) 1000#32) _ _ = _
  rw [iota_single_apply]
  show Scalar.select (IntOp.cmpi .slt (BitVec.ofNat 32 c.val) 1000#32) _ _ = _
  rw [lane_lt c]
  by_cases h : c.val < 1000
  · rw [if_pos h, if_pos h, select_one]
  · rw [if_neg h, if_neg h, select_zero]

/-! ## Layer 2: the body, stage by stage -/

section Layer2

/-- Lane `c` of a row before the exponentials: the logit of class `c` below 1000, the bottom element from 1000 on. -/
def lane (hrow : Fin 4096 → EReal) (w : FVec Ideal S1024x4096 .bf16) (b : FVec Ideal S1x1024 .f32) (c : Fin 1024) : EReal :=
  if c.val < 1000 then (∑ k : Fin 4096, hrow k * w (ix2 c k)) + b (ix2 0 c) else ⊥
/-- The row's running maximum over its 1024 lanes. -/
def rowMax (hrow : Fin 4096 → EReal) (w : FVec Ideal S1024x4096 .bf16) (b : FVec Ideal S1x1024 .f32) : EReal :=
  (Finset.univ : Finset (Fin 1024)).fold max (FloatOps.ofBits (F := Ideal) .f32 0xFF800000#32) (lane hrow w b)
/-- The sum over the 1024 lanes of the exponentials of the lanes less the maximum. -/
def rowSum (hrow : Fin 4096 → EReal) (w : FVec Ideal S1024x4096 .bf16) (b : FVec Ideal S1x1024 .f32) : EReal :=
  ∑ c : Fin 1024, Ideal.exp (lane hrow w b c - rowMax hrow w b)
/-- The stored entry of class `q`. -/
def entry (hrow : Fin 4096 → EReal) (w : FVec Ideal S1024x4096 .bf16) (b : FVec Ideal S1x1024 .f32) (q : Fin 1000) : EReal :=
  Ideal.div (Ideal.exp (lane hrow w b (Fin.castLE (by decide) q) - rowMax hrow w b)) (rowSum hrow w b)

variable (y0 : FVec Ideal S512x4096 .bf16) (y1 : FVec Ideal S1024x4096 .bf16) (b : FVec Ideal S1x1024 .f32)

/-- The logits on all 1024 lanes. -/
def logits2 : FVec Ideal S512x1024 .f32 :=
  addf (matmul dot_S512x4096_S1024x4096_S512x1024_1_1_0_0_n_n none y0 y1 (constant (F := Ideal) S512x1024 .f32 0x00000000#32)) (broadcastTo S512x1024 b broadcasts_S1x1024_S512x1024)
/-- The lanes after the mask. -/
def masked2 : FVec Ideal S512x1024 .f32 :=
  select (cmpi .slt (iota .tc S512x1024 32 [1] iota_S512x1024_d1_w32) (broadcast S512x1024 (1000#32 : BitVec 32))) (logits2 y0 y1 b)
    (broadcast S512x1024 (Named.named (F := Ideal) κ "neg_big" (φ := .f32) 0xF149F2CA#32))
/-- The rows' maxima. -/
def rmax2 : FVec Ideal S512 .f32 :=
  multiReduction (F := Ideal) .maximumf [1] S512 (masked2 y0 y1 b) 0xFF800000#32 reduces_S512x1024_S512 (.inl rfl) rfl
/-- The exponentials. -/
def ex2 : FVec Ideal S512x1024 .f32 :=
  exp (subf (masked2 y0 y1 b) (broadcastTo S512x1024 (shapeCast S512x1 (rmax2 y0 y1 b) shapeCasts_S512_S512x1) broadcasts_S512x1_S512x1024))
/-- The rows' sums. -/
def rsum2 : FVec Ideal S512 .f32 :=
  multiReduction (F := Ideal) .add [1] S512 (ex2 y0 y1 b) 0x00000000#32 reduces_S512x1024_S512 (.inl rfl) rfl
/-- The stored block. -/
def out2 : FVec Ideal S512x1000 .f32 :=
  extractStridedSlice S512x1000 ![0, 0]
    (divf (ex2 y0 y1 b) (broadcastTo S512x1024 (shapeCast S512x1 (rsum2 y0 y1 b) shapeCasts_S512_S512x1) broadcasts_S512x1_S512x1024))
    slices_S512x1024_o0_0_S512x1000

theorem logits2_apply (p : Fin 512) (c : Fin 1024) :
    logits2 y0 y1 b (ix2 p c) = (∑ k : Fin 4096, y0 (ix2 p k) * y1 (ix2 c k)) + b (ix2 0 c) := by
  show (matmul dot_S512x4096_S1024x4096_S512x1024_1_1_0_0_n_n none y0 y1 (constant (F := Ideal) S512x1024 .f32 0x00000000#32) (ix2 p c) : EReal)
    + broadcastTo S512x1024 b broadcasts_S1x1024_S512x1024 (ix2 p c) = _
  rw [contract2_apply, biasRow2_apply]

theorem masked2_apply (p : Fin 512) (c : Fin 1024) :
    masked2 y0 y1 b (ix2 p c) = lane (fun k => y0 (ix2 p k)) y1 b c := by
  refine (mask_apply (logits2 y0 y1 b) p c).trans ?_
  unfold lane
  rw [logits2_apply]

theorem rmax2_apply (p : Fin 512) : rmax2 y0 y1 b (ix1 p) = rowMax (fun k => y0 (ix2 p k)) y1 b := by
  refine (rowMax_apply (masked2 y0 y1 b) p).trans ?_
  unfold rowMax
  exact congrArg (fun f => (Finset.univ : Finset (Fin 1024)).fold max _ f) (funext fun c => masked2_apply y0 y1 b p c)

theorem ex2_apply (p : Fin 512) (c : Fin 1024) :
    ex2 y0 y1 b (ix2 p c) = Ideal.exp (lane (fun k => y0 (ix2 p k)) y1 b c - rowMax (fun k => y0 (ix2 p k)) y1 b) := by
  show Ideal.exp ((masked2 y0 y1 b (ix2 p c) : EReal)
    - broadcastTo S512x1024 (shapeCast S512x1 (rmax2 y0 y1 b) shapeCasts_S512_S512x1) broadcasts_S512x1_S512x1024 (ix2 p c)) = _
  rw [rowValue_apply, masked2_apply, rmax2_apply]

theorem rsum2_apply (p : Fin 512) : rsum2 y0 y1 b (ix1 p) = rowSum (fun k => y0 (ix2 p k)) y1 b := by
  refine (rowSum_apply (ex2 y0 y1 b) p).trans ?_
  unfold rowSum
  exact Finset.sum_congr rfl fun c _ => ex2_apply y0 y1 b p c

theorem out2_apply (p : Fin 512) (q : Fin 1000) :
    out2 y0 y1 b (ix2 p q) = entry (fun k => y0 (ix2 p k)) y1 b q := by
  refine (lanes1000_apply _ p q).trans ?_
  show Ideal.div (ex2 y0 y1 b (ix2 p (Fin.castLE (by decide) q)) : EReal)
    (broadcastTo S512x1024 (shapeCast S512x1 (rsum2 y0 y1 b) shapeCasts_S512_S512x1) broadcasts_S512x1_S512x1024 (ix2 p (Fin.castLE (by decide) q))) = _
  rw [rowValue_apply, ex2_apply, rsum2_apply]
  rfl

end Layer2

/-- Layer 2's payload is the chain of stages (its three casts to the same shape are the identity). -/
theorem k1_pay1_eq (x0 : Vec Ideal S512x4096 .bf16) (x1 : Vec Ideal S1024x4096 .bf16) (x2 : Vec Ideal S1x1024 .f32) :
    k1_pay1 (F := Ideal) x0 x1 x2 = out2 x0 x1 x2 := by
  show out2 (shapeCast S512x4096 x0 shapeCasts_S512x4096_S512x4096) (shapeCast S1024x4096 x1 shapeCasts_S1024x4096_S1024x4096)
    (shapeCast S1x1024 x2 shapeCasts_S1x1024_S1x1024) = _
  rw [shapeCast_self, shapeCast_self, shapeCast_self]

/-- Layer 2's payload at row `p`, class `q`. -/
theorem k1_pay1_apply (x0 : Vec Ideal S512x4096 .bf16) (x1 : Vec Ideal S1024x4096 .bf16) (x2 : Vec Ideal S1x1024 .f32)
    (p : Fin 512) (q : Fin 1000) :
    k1_pay1 (F := Ideal) x0 x1 x2 (ix2 p q) = entry (fun k => x0 (ix2 p k)) x1 x2 q := by
  rw [k1_pay1_eq]
  exact out2_apply x0 x1 x2 p q

/-! ## Layer 1 -/

theorem lhs1_0 (i : S128x4096.Idx) (q : dot_S128x4096_S4096x4096_S128x4096_1_1_0_0_n_n.contr.Idx) :
    (dot_S128x4096_S4096x4096_S128x4096_1_1_0_0_n_n.lhsIdx i q 0).val = (i 0).val := by
  unfold DotDims.lhsIdx
  rw [dif_neg (show ¬(0 : Fin S128x4096.rank) ∈ dot_S128x4096_S4096x4096_S128x4096_1_1_0_0_n_n.lhsBatch by decide), dif_pos (show (0 : Fin S128x4096.rank) ∈ dot_S128x4096_S4096x4096_S128x4096_1_1_0_0_n_n.lhsNonContracting by decide)]
  rfl
theorem lhs1_1 (i : S128x4096.Idx) (q : dot_S128x4096_S4096x4096_S128x4096_1_1_0_0_n_n.contr.Idx) :
    (dot_S128x4096_S4096x4096_S128x4096_1_1_0_0_n_n.lhsIdx i q 1).val = (q ⟨0, by decide⟩).val :=
  dot_S128x4096_S4096x4096_S128x4096_1_1_0_0_n_n.lhsIdx_val_of_single rfl i q
theorem rhs1_0 (i : S128x4096.Idx) (q : dot_S128x4096_S4096x4096_S128x4096_1_1_0_0_n_n.contr.Idx) :
    (dot_S128x4096_S4096x4096_S128x4096_1_1_0_0_n_n.rhsIdx i q 0).val = (i 1).val := by
  unfold DotDims.rhsIdx
  rw [dif_neg (show ¬(0 : Fin S4096x4096.rank) ∈ dot_S128x4096_S4096x4096_S128x4096_1_1_0_0_n_n.rhsBatch by decide), dif_pos (show (0 : Fin S4096x4096.rank) ∈ dot_S128x4096_S4096x4096_S128x4096_1_1_0_0_n_n.rhsNonContracting by decide)]
  rfl
theorem rhs1_1 (i : S128x4096.Idx) (q : dot_S128x4096_S4096x4096_S128x4096_1_1_0_0_n_n.contr.Idx) :
    (dot_S128x4096_S4096x4096_S128x4096_1_1_0_0_n_n.rhsIdx i q 1).val = (q ⟨0, by decide⟩).val :=
  dot_S128x4096_S4096x4096_S128x4096_1_1_0_0_n_n.rhsIdx_val_of_single rfl i q

/-- The product into a zero accumulator, at row `p` and hidden unit `j`: the sum over the 4096 input coordinates. -/
theorem contract1_apply (y0 : FVec Ideal S128x4096 .bf16) (y1 : FVec Ideal S4096x4096 .bf16) (p : Fin 128) (j : Fin 4096) :
    matmul dot_S128x4096_S4096x4096_S128x4096_1_1_0_0_n_n none y0 y1 (constant (F := Ideal) S128x4096 .f32 0x00000000#32) (ix2 p j)
      = ∑ k : Fin 4096, y0 (ix2 p k) * y1 (ix2 j k) := by
  show FloatOps.matmul dot_S128x4096_S4096x4096_S128x4096_1_1_0_0_n_n none y0 y1 (constant (F := Ideal) S128x4096 .f32 0x00000000#32) (ix2 p j) = _
  rw [Ideal.matmul_constant_zero_apply, ← Equiv.sum_comp (ValueIdx.contrEquiv1 dot_S128x4096_S4096x4096_S128x4096_1_1_0_0_n_n 4096 rfl rfl).symm]
  refine Finset.sum_congr rfl fun k _ => ?_
  have hk := ValueIdx.contrEquiv1_symm_val dot_S128x4096_S4096x4096_S128x4096_1_1_0_0_n_n 4096 rfl rfl k
  have el : dot_S128x4096_S4096x4096_S128x4096_1_1_0_0_n_n.lhsIdx (ix2 p j) ((ValueIdx.contrEquiv1 dot_S128x4096_S4096x4096_S128x4096_1_1_0_0_n_n 4096 rfl rfl).symm k) = ix2 p k := funext fun a => Fin.ext (by
    match a with
    | ⟨0, _⟩ => exact lhs1_0 _ _
    | ⟨1, _⟩ => exact (lhs1_1 _ _).trans hk)
  have er : dot_S128x4096_S4096x4096_S128x4096_1_1_0_0_n_n.rhsIdx (ix2 p j) ((ValueIdx.contrEquiv1 dot_S128x4096_S4096x4096_S128x4096_1_1_0_0_n_n 4096 rfl rfl).symm k) = ix2 j k := funext fun a => Fin.ext (by
    match a with
    | ⟨0, _⟩ => exact rhs1_0 _ _
    | ⟨1, _⟩ => exact (rhs1_1 _ _).trans hk)
  rw [el, er]

/-- The bias row spread down the 128 rows. -/
theorem biasRow1_apply (b : FVec Ideal S1x4096 .f32) (p : Fin 128) (j : Fin 4096) :
    broadcastTo S128x4096 b broadcasts_S1x4096_S128x4096 (ix2 p j) = b (ix2 0 j) :=
  broadcastTo_apply b broadcasts_S1x4096_S128x4096 (ix2 p j) (ix2 0 j) (fun a => match a with
    | ⟨0, _⟩ => by show 0 = if (1 : Nat) = 1 then 0 else p.val; rw [if_pos rfl]
    | ⟨1, _⟩ => by show j.val = if (4096 : Nat) = 1 then 0 else j.val; rw [if_neg (by decide)])

/-- Hidden unit `j` of a row: the affine image of the row, cut off below at the zero word's value. -/
def hiddenEntry (xrow : Fin 4096 → EReal) (w : FVec Ideal S4096x4096 .bf16) (b : FVec Ideal S1x4096 .f32) (j : Fin 4096) : EReal :=
  max ((∑ k : Fin 4096, xrow k * w (ix2 j k)) + b (ix2 0 j)) (FloatOps.ofBits (F := Ideal) .f32 0x00000000#32)

/-- The stored block of layer 1 (the two changes of float format are the identity over the extended reals). -/
def out1 (y0 : FVec Ideal S128x4096 .bf16) (y1 : FVec Ideal S4096x4096 .bf16) (b : FVec Ideal S1x4096 .f32) : FVec Ideal S128x4096 .bf16 :=
  truncf .bf16 (maximumf (addf (matmul dot_S128x4096_S4096x4096_S128x4096_1_1_0_0_n_n none y0 y1 (constant (F := Ideal) S128x4096 .f32 0x00000000#32))
    (broadcastTo S128x4096 b broadcasts_S1x4096_S128x4096)) (broadcast S128x4096 (Scalar.ofBits (F := Ideal) .f32 0x00000000#32))) bitsLt_bf16_f32

theorem out1_apply (y0 : FVec Ideal S128x4096 .bf16) (y1 : FVec Ideal S4096x4096 .bf16) (b : FVec Ideal S1x4096 .f32) (p : Fin 128) (j : Fin 4096) :
    out1 y0 y1 b (ix2 p j) = hiddenEntry (fun k => y0 (ix2 p k)) y1 b j := by
  show max ((matmul dot_S128x4096_S4096x4096_S128x4096_1_1_0_0_n_n none y0 y1 (constant (F := Ideal) S128x4096 .f32 0x00000000#32) (ix2 p j) : EReal)
    + broadcastTo S128x4096 b broadcasts_S1x4096_S128x4096 (ix2 p j)) (FloatOps.ofBits (F := Ideal) .f32 0x00000000#32) = _
  rw [contract1_apply, biasRow1_apply]
  rfl

/-- Layer 1's payload is that block of the loaded values (the casts to the same shape are the identity). -/
theorem k0_pay1_eq (x0 : Vec Ideal S128x4096 .f32) (x2 : Vec Ideal S4096x4096 .bf16) (x5 : Vec Ideal S1x4096 .f32) :
    k0_pay1 (F := Ideal) x0 x2 x5 = out1 (truncf .bf16 x0 bitsLt_bf16_f32) x2 x5 := by
  show out1 (truncf .bf16 x0 bitsLt_bf16_f32) (shapeCast S4096x4096 x2 shapeCasts_S4096x4096_S4096x4096)
    (shapeCast S1x4096 x5 shapeCasts_S1x4096_S1x4096) = _
  rw [shapeCast_self, shapeCast_self]

/-- Layer 1's payload at row `p`, hidden unit `j`. -/
theorem k0_pay1_apply (x0 : Vec Ideal S128x4096 .f32) (x2 : Vec Ideal S4096x4096 .bf16) (x5 : Vec Ideal S1x4096 .f32)
    (p : Fin 128) (j : Fin 4096) :
    k0_pay1 (F := Ideal) x0 x2 x5 (ix2 p j) = hiddenEntry (fun k => x0 (ix2 p k)) x2 x5 j := by
  rw [k0_pay1_eq]
  exact out1_apply (truncf .bf16 x0 bitsLt_bf16_f32) x2 x5 p j

end Cert.KernelIdeal.Body

end
-- ==== Proof.KernelArrays.lean ====
import proofs.«419465_j6064493822319_3_alg».proof.Proof.Gen.KernelIdeal.Frame
import proofs.«419465_j6064493822319_3_alg».proof.Proof.KernelBody
import Idealize.ShloMosaic.Lib.Pipeline.Value

/-!
# Each region's output array as one function of the arrays it enters with

Layer 1's grid has 64 points; point `t` reads rows `128 t … 128 t + 127` of the activations, the whole weight matrix and
the whole bias row, and writes back rows `128 t …` of the hidden array. Layer 2's grid has 16 points of 512 rows. The
row blocks tile the 8192 rows, so after a region its output array is, row by row, the body's function of the matching
row of its first input and of the two resident arrays.
-/

set_option maxRecDepth 16384

noncomputable section

namespace Cert.KernelIdeal.Arrays

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Layer 1 -/

/-- The hidden array: row `r`, unit `j` from row `r` of the activations. -/
def hiddenArr (x : S8192x4096.Idx → Elt Ideal .f32) (w : S4096x4096.Idx → Elt Ideal .bf16) (b : S1x4096.Idx → Elt Ideal .f32) :
    S8192x4096.Idx → Elt Ideal .bf16 :=
  fun i => hiddenEntry (fun k => x (ix2 (i 0) k)) w b (i 1)

/-- The printed index maps over the 64 points: the activations' and the output's block number is the point, the resident
    arrays' is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt0 (t : Fin cfg0.N) : t.val < 64 := lt_of_lt_of_eq t.isLt N_0

/-- The activations' block at point `t`: rows `128 t …`. -/
theorem xblk_apply (c : Dev nD) (t : Fin cfg0.N) (p : Fin 128) (k : Fin 4096) :
    (iblk0 V c 0 t : Vec Ideal S128x4096 .f32) (ix2 p k)
      = (V c main_arg0 : S8192x4096.Idx → Elt Ideal .f32) (ix2 ⟨t.val * 128 + p.val, by have := lt0 t; have := p.isLt; omega⟩ k) := by
  show (V c main_arg0 : S8192x4096.Idx → Elt Ideal .f32) (((cfg0.win 0).blk t).view.emb (ix2 p k)) = _
  refine congrArg _ (funext fun a => Fin.ext ?_)
  obtain ⟨e0, e1, -⟩ := idx_facts0 t
  match a with
  | ⟨0, _⟩ => show win0_0.index t (0 : Fin 2) * 128 + 1 * p.val = t.val * 128 + p.val; rw [e0]; omega
  | ⟨1, _⟩ => show win0_0.index t (1 : Fin 2) * 4096 + 1 * k.val = k.val; rw [e1]; omega

/-- The weights' block is the whole array. -/
theorem w1blk_eq (c : Dev nD) (t : Fin cfg0.N) :
    (iblk0 V c 1 t : Vec Ideal S4096x4096 .bf16) = (V c main_v0 : S4096x4096.Idx → Elt Ideal .bf16) := by
  funext y
  show (V c main_v0 : S4096x4096.Idx → Elt Ideal .bf16) (((cfg0.win 1).blk t).view.emb y) = _
  refine congrArg _ (funext fun a => Fin.ext ?_)
  obtain ⟨-, -, e2, e3, -⟩ := idx_facts0 t
  match a with
  | ⟨0, _⟩ => show win0_1.index t (0 : Fin 2) * 4096 + 1 * (y 0).val = (y 0).val; rw [e2]; omega
  | ⟨1, _⟩ => show win0_1.index t (1 : Fin 2) * 4096 + 1 * (y 1).val = (y 1).val; rw [e3]; omega

/-- The bias row's block is the whole row. -/
theorem b1blk_eq (c : Dev nD) (t : Fin cfg0.N) :
    (iblk0 V c 2 t : Vec Ideal S1x4096 .f32) = (V c main_v1 : S1x4096.Idx → Elt Ideal .f32) := by
  funext y
  show (V c main_v1 : S1x4096.Idx → Elt Ideal .f32) (((cfg0.win 2).blk t).view.emb y) = _
  refine congrArg _ (funext fun a => Fin.ext ?_)
  obtain ⟨-, -, -, -, e4, e5, -⟩ := idx_facts0 t
  match a with
  | ⟨0, _⟩ => show win0_2.index t (0 : Fin 2) * 1 + 1 * (y 0).val = (y 0).val; rw [e4]; omega
  | ⟨1, _⟩ => show win0_2.index t (1 : Fin 2) * 4096 + 1 * (y 1).val = (y 1).val; rw [e5]; omega

/-- WHAT POINT `t` WRITES BACK is block `t` of the hidden array of the arrays as the region finds them. -/
theorem flushed0_eq (c : Dev nD) (t : Fin cfg0.N) :
    (dat0 V c).flushed 3 t = ((cfg0.win 3).blk t).view.read (Elt Ideal) (hiddenArr (V c main_arg0) (V c main_v0) (V c main_v1)) := by
  show (cfg0.win 3).cut (grid0.coords t) ((dat0 V c).after 3 t) = _
  rw [after0_3]
  unfold out0_3
  rw [View.canon_unit_zero hz]
  simp only [View.ld_unit_zero (S := S128x4096) hz, View.ld_unit_zero (S := S4096x4096) hz, View.ld_unit_zero (S := S1x4096) hz]
  funext j
  obtain ⟨p, q, rfl⟩ : ∃ (p : Fin 128) (q : Fin 4096), j = ix2 p q := ⟨j 0, j 1, eq_ix2 j⟩
  show k0_pay1 (F := Ideal) (iblk0 V c 0 t) (iblk0 V c 1 t) (iblk0 V c 2 t) (ix2 p q)
    = hiddenArr (V c main_arg0) (V c main_v0) (V c main_v1) (((cfg0.win 3).blk t).view.emb (ix2 p q))
  rw [k0_pay1_apply, w1blk_eq, b1blk_eq]
  unfold hiddenArr
  obtain ⟨-, -, -, -, -, -, e6, e7⟩ := idx_facts0 t
  have hlt : t.val * 128 + p.val < 8192 := by have := lt0 t; have := p.isLt; omega
  have hr : (((cfg0.win 3).blk t).view.emb (ix2 p q) : S8192x4096.Idx) 0 = (⟨t.val * 128 + p.val, hlt⟩ : Fin 8192) :=
    Fin.ext (by show win0_3.index t (0 : Fin 2) * 128 + 1 * p.val = t.val * 128 + p.val; rw [e6]; omega)
  have hc : (((cfg0.win 3).blk t).view.emb (ix2 p q) : S8192x4096.Idx) 1 = (q : Fin 4096) :=
    Fin.ext (by show win0_3.index t (1 : Fin 2) * 4096 + 1 * q.val = q.val; rw [e7]; omega)
  rw [hr, hc]
  exact congrArg (fun f => hiddenEntry f _ _ q) (funext fun k => xblk_apply V c t p k)

/-- An index of the hidden array is in point `t`'s block iff each coordinate is in the block's range on its axis. -/
theorem mem_blk0 (t : Fin cfg0.N) (i : S8192x4096.Idx) :
    i ∈ ((cfg0.win 3).blk t).view.set ↔ ∀ a : Fin 2, win0_3.index t a * S128x4096.size a ≤ (i a).val ∧ (i a).val < win0_3.index t a * S128x4096.size a + S128x4096.size a := by
  show i ∈ ((View.whole main_v6).slice (win0_3.rect t)).set ↔ _
  rw [View.set_slice_whole, Rect.mem_set_unit]
  exact Iff.rfl

/-- The 64 row blocks tile the hidden array. -/
theorem cover0 (i : S8192x4096.Idx) : ∃ t : Fin cfg0.N, (cfg0.win 3).flush t = true ∧ i ∈ ((cfg0.win 3).blk t).view.set := by
  have hi0 : (i 0).val < 8192 := idx2_lt0 i
  have hi1 : (i 1).val < 4096 := idx2_lt1 i
  let t : Fin cfg0.N := ⟨(i 0).val / 128, by rw [show cfg0.N = 64 from N_0]; omega⟩
  refine ⟨t, flush0_3 t, ?_⟩
  rw [mem_blk0]
  obtain ⟨-, -, -, -, -, -, e6, e7⟩ := idx_facts0 t
  intro a
  match a with
  | ⟨0, _⟩ =>
    show win0_3.index t (0 : Fin 2) * 128 ≤ (i 0).val ∧ (i 0).val < win0_3.index t (0 : Fin 2) * 128 + 128
    rw [e6]; show (i 0).val / 128 * 128 ≤ (i 0).val ∧ (i 0).val < (i 0).val / 128 * 128 + 128; omega
  | ⟨1, _⟩ =>
    show win0_3.index t (1 : Fin 2) * 4096 ≤ (i 1).val ∧ (i 1).val < win0_3.index t (1 : Fin 2) * 4096 + 4096
    rw [e7]; omega

/-- THE HIDDEN ARRAY after region 0. -/
theorem final0 (c : Dev nD) :
    (dat0 V c).arrAt 3 cfg0.N = hiddenArr (V c main_arg0) (V c main_v0) (V c main_v1) :=
  (dat0 V c).arrAt_eq_of_cover 3 _ (fun t _ => flushed0_eq V c t) (cover0)

/-! ## Layer 2 -/

/-- The result array: row `r`, class `q` from row `r` of the hidden array. -/
def probArr (h : S8192x4096.Idx → Elt Ideal .bf16) (w : S1024x4096.Idx → Elt Ideal .bf16) (b : S1x1024.Idx → Elt Ideal .f32) :
    S8192x1000.Idx → Elt Ideal .f32 :=
  fun i => entry (fun k => h (ix2 (i 0) k)) w b (i 1)

/-- The printed index maps over the 16 points: the hidden array's and the output's block number is the point, the resident
    arrays' is zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lt1 (t : Fin cfg1.N) : t.val < 16 := lt_of_lt_of_eq t.isLt N_1

/-- The hidden array's block at point `t`: rows `512 t …`. -/
theorem hblk_apply (c : Dev nD) (t : Fin cfg1.N) (p : Fin 512) (k : Fin 4096) :
    (iblk1 V c 0 t : Vec Ideal S512x4096 .bf16) (ix2 p k)
      = (V c main_v6 : S8192x4096.Idx → Elt Ideal .bf16) (ix2 ⟨t.val * 512 + p.val, by have := lt1 t; have := p.isLt; omega⟩ k) := by
  show (V c main_v6 : S8192x4096.Idx → Elt Ideal .bf16) (((cfg1.win 0).blk t).view.emb (ix2 p k)) = _
  refine congrArg _ (funext fun a => Fin.ext ?_)
  obtain ⟨e0, e1, -⟩ := idx_facts1 t
  match a with
  | ⟨0, _⟩ => show win1_0.index t (0 : Fin 2) * 512 + 1 * p.val = t.val * 512 + p.val; rw [e0]; omega
  | ⟨1, _⟩ => show win1_0.index t (1 : Fin 2) * 4096 + 1 * k.val = k.val; rw [e1]; omega

/-- The padded weights' block is the whole array. -/
theorem w2blk_eq (c : Dev nD) (t : Fin cfg1.N) :
    (iblk1 V c 1 t : Vec Ideal S1024x4096 .bf16) = (V c main_v3 : S1024x4096.Idx → Elt Ideal .bf16) := by
  funext y
  show (V c main_v3 : S1024x4096.Idx → Elt Ideal .bf16) (((cfg1.win 1).blk t).view.emb y) = _
  refine congrArg _ (funext fun a => Fin.ext ?_)
  obtain ⟨-, -, e2, e3, -⟩ := idx_facts1 t
  match a with
  | ⟨0, _⟩ => show win1_1.index t (0 : Fin 2) * 1024 + 1 * (y 0).val = (y 0).val; rw [e2]; omega
  | ⟨1, _⟩ => show win1_1.index t (1 : Fin 2) * 4096 + 1 * (y 1).val = (y 1).val; rw [e3]; omega

/-- The padded bias row's block is the whole row. -/
theorem b2blk_eq (c : Dev nD) (t : Fin cfg1.N) :
    (iblk1 V c 2 t : Vec Ideal S1x1024 .f32) = (V c main_v5 : S1x1024.Idx → Elt Ideal .f32) := by
  funext y
  show (V c main_v5 : S1x1024.Idx → Elt Ideal .f32) (((cfg1.win 2).blk t).view.emb y) = _
  refine congrArg _ (funext fun a => Fin.ext ?_)
  obtain ⟨-, -, -, -, e4, e5, -⟩ := idx_facts1 t
  match a with
  | ⟨0, _⟩ => show win1_2.index t (0 : Fin 2) * 1 + 1 * (y 0).val = (y 0).val; rw [e4]; omega
  | ⟨1, _⟩ => show win1_2.index t (1 : Fin 2) * 1024 + 1 * (y 1).val = (y 1).val; rw [e5]; omega

/-- WHAT POINT `t` WRITES BACK is block `t` of the result array of the arrays as the region finds them. -/
theorem flushed1_eq (c : Dev nD) (t : Fin cfg1.N) :
    (dat1 V c).flushed 3 t = ((cfg1.win 3).blk t).view.read (Elt Ideal) (probArr (V c main_v6) (V c main_v3) (V c main_v5)) := by
  show (cfg1.win 3).cut (grid1.coords t) ((dat1 V c).after 3 t) = _
  rw [after1_3]
  unfold out1_3
  rw [View.canon_unit_zero hz]
  simp only [View.ld_unit_zero (S := S512x4096) hz, View.ld_unit_zero (S := S1024x4096) hz, View.ld_unit_zero (S := S1x1024) hz]
  funext j
  obtain ⟨p, q, rfl⟩ : ∃ (p : Fin 512) (q : Fin 1000), j = ix2 p q := ⟨j 0, j 1, eq_ix2 j⟩
  show k1_pay1 (F := Ideal) (iblk1 V c 0 t) (iblk1 V c 1 t) (iblk1 V c 2 t) (ix2 p q)
    = probArr (V c main_v6) (V c main_v3) (V c main_v5) (((cfg1.win 3).blk t).view.emb (ix2 p q))
  rw [k1_pay1_apply, w2blk_eq, b2blk_eq]
  unfold probArr
  obtain ⟨-, -, -, -, -, -, e6, e7⟩ := idx_facts1 t
  have hlt : t.val * 512 + p.val < 8192 := by have := lt1 t; have := p.isLt; omega
  have hr : (((cfg1.win 3).blk t).view.emb (ix2 p q) : S8192x1000.Idx) 0 = (⟨t.val * 512 + p.val, hlt⟩ : Fin 8192) :=
    Fin.ext (by show win1_3.index t (0 : Fin 2) * 512 + 1 * p.val = t.val * 512 + p.val; rw [e6]; omega)
  have hc : (((cfg1.win 3).blk t).view.emb (ix2 p q) : S8192x1000.Idx) 1 = (q : Fin 1000) :=
    Fin.ext (by show win1_3.index t (1 : Fin 2) * 1000 + 1 * q.val = q.val; rw [e7]; omega)
  rw [hr, hc]
  exact congrArg (fun f => entry f _ _ q) (funext fun k => hblk_apply V c t p k)

/-- An index of the result array is in point `t`'s block iff each coordinate is in the block's range on its axis. -/
theorem mem_blk1 (t : Fin cfg1.N) (i : S8192x1000.Idx) :
    i ∈ ((cfg1.win 3).blk t).view.set ↔ ∀ a : Fin 2, win1_3.index t a * S512x1000.size a ≤ (i a).val ∧ (i a).val < win1_3.index t a * S512x1000.size a + S512x1000.size a := by
  show i ∈ ((View.whole main_v7).slice (win1_3.rect t)).set ↔ _
  rw [View.set_slice_whole, Rect.mem_set_unit]
  exact Iff.rfl

/-- The 16 row blocks tile the result array. -/
theorem cover1 (i : S8192x1000.Idx) : ∃ t : Fin cfg1.N, (cfg1.win 3).flush t = true ∧ i ∈ ((cfg1.win 3).blk t).view.set := by
  have hi0 : (i 0).val < 8192 := idx2_lt0 i
  have hi1 : (i 1).val < 1000 := idx2_lt1 i
  let t : Fin cfg1.N := ⟨(i 0).val / 512, by rw [show cfg1.N = 16 from N_1]; omega⟩
  refine ⟨t, flush1_3 t, ?_⟩
  rw [mem_blk1]
  obtain ⟨-, -, -, -, -, -, e6, e7⟩ := idx_facts1 t
  intro a
  match a with
  | ⟨0, _⟩ =>
    show win1_3.index t (0 : Fin 2) * 512 ≤ (i 0).val ∧ (i 0).val < win1_3.index t (0 : Fin 2) * 512 + 512
    rw [e6]; show (i 0).val / 512 * 512 ≤ (i 0).val ∧ (i 0).val < (i 0).val / 512 * 512 + 512; omega
  | ⟨1, _⟩ =>
    show win1_3.index t (1 : Fin 2) * 1000 ≤ (i 1).val ∧ (i 1).val < win1_3.index t (1 : Fin 2) * 1000 + 1000
    rw [e7]; omega

/-- THE RESULT ARRAY after region 1. -/
theorem final1 (c : Dev nD) :
    (dat1 V c).arrAt 3 cfg1.N = probArr (V c main_v6) (V c main_v3) (V c main_v5) :=
  (dat1 V c).arrAt_eq_of_cover 3 _ (fun t _ => flushed1_eq V c t) (cover1)

end Cert.KernelIdeal.Arrays

end
-- ==== Proof.KernelValue.lean ====
import proofs.«419465_j6064493822319_3_alg».proof.Proof.Gen.KernelIdeal.Frame
import proofs.«419465_j6064493822319_3_alg».proof.Proof.KernelArrays
import Idealize.ShloMosaic.Lib.StableHlo.Run

/-!
# The kernel's result array as one function of the launch contents

Before the two regions the host converts the first weight matrix, reshapes the first bias to a row, pads the second weight
matrix from 1000 to 1024 rows and converts it, and pads the second bias from 1000 to 1024 entries and reshapes it to a row.
Region 0 turns the activations into the hidden array; region 1 turns the hidden array into the result. Read back from
the last boundary, the result array is region 1's function of region 0's function of those host-made arrays.
-/

set_option maxRecDepth 16384

noncomputable section

namespace Cert.KernelIdeal.Result

open Cert.KernelIdeal Cert.KernelIdeal.Gen Cert.KernelIdeal.Body Cert.KernelIdeal.Arrays
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The arrays region 0 is entered with -/

/-- The first weight matrix, converted. -/
def w1Arr (c : Dev nD) : FVec Ideal S4096x4096 .bf16 :=
  truncf (F := Ideal) .bf16 (m ((c : Thread nD τ).loc main_arg1)) bitsLt_bf16_f32
/-- The first bias as a row. -/
def b1Arr (c : Dev nD) : FVec Ideal S1x4096 .f32 :=
  shapeCast S1x4096 (m ((c : Thread nD τ).loc main_arg2)) shapeCasts_S4096_S1x4096
/-- The second weight matrix padded to 1024 rows, converted. -/
def w2Arr (c : Dev nD) : FVec Ideal S1024x4096 .bf16 :=
  truncf (F := Ideal) .bf16 (pad S1024x4096 ![0, 0] ![24, 0] ![0, 0] (m ((c : Thread nD τ).loc main_arg3))
    (sitofp (F := Ideal) .f32 (constantI S_ 32 0#32)) pads_S1000x4096_S1024x4096_0240_000 h_S_) bitsLt_bf16_f32
/-- The second bias padded to 1024 entries, as a row. -/
def b2Arr (c : Dev nD) : FVec Ideal S1x1024 .f32 :=
  shapeCast S1x1024 (pad S1024 ![0] ![24] ![0] (m ((c : Thread nD τ).loc main_arg4))
    (sitofp (F := Ideal) .f32 (constantI S_ 32 0#32)) pads_S1000_S1024_0240 h_S_) shapeCasts_S1024_S1x1024

theorem W5_arg0 (c : Dev nD) : W5 m ρ c (Proc.devRef .tc main_arg0) = m ((c : Thread nD τ).loc main_arg0) := by
  dsimp only [W5, W4, W3, W2, W1, hostOps0, hostOps0_1, hostOps0_2, hostOps0_3, hostOps0_4]
  after_results
theorem W5_v0 (c : Dev nD) : W5 m ρ c (Proc.devRef .tc main_v0) = w1Arr m c := by
  dsimp only [W5, W4, W3, W2, W1, hostOps0, hostOps0_1, hostOps0_2, hostOps0_3, hostOps0_4]
  after_results
  rfl
theorem W5_v1 (c : Dev nD) : W5 m ρ c (Proc.devRef .tc main_v1) = b1Arr m c := by
  dsimp only [W5, W4, W3, W2, W1, hostOps0, hostOps0_1, hostOps0_2, hostOps0_3, hostOps0_4]
  after_results
  rfl
theorem W5_v3 (c : Dev nD) : W5 m ρ c (Proc.devRef .tc main_v3) = w2Arr m c := by
  dsimp only [W5, W4, W3, W2, W1, hostOps0, hostOps0_1, hostOps0_2, hostOps0_3, hostOps0_4]
  after_results
  rfl
theorem W5_v5 (c : Dev nD) : W5 m ρ c (Proc.devRef .tc main_v5) = b2Arr m c := by
  dsimp only [W5, W4, W3, W2, W1, hostOps0, hostOps0_1, hostOps0_2, hostOps0_3, hostOps0_4]
  after_results
  rfl

/-! ## The two regions, composed -/

/-- The hidden array as region 1 finds it. -/
theorem hidden_eq (c : Dev nD) :
    (V6 m ρ c main_v6 : S8192x4096.Idx → Elt Ideal .bf16)
      = hiddenArr (m ((c : Thread nD τ).loc main_arg0)) (w1Arr m c) (b1Arr m c) := by
  refine (W6_arr m ρ c 3).trans ((final0 (V5 m ρ) c).trans ?_)
  have e0 : (V5 m ρ c main_arg0 : S8192x4096.Idx → Elt Ideal .f32) = m ((c : Thread nD τ).loc main_arg0) := W5_arg0 m ρ c
  have e1 : (V5 m ρ c main_v0 : FVec Ideal S4096x4096 .bf16) = w1Arr m c := W5_v0 m ρ c
  have e2 : (V5 m ρ c main_v1 : FVec Ideal S1x4096 .f32) = b1Arr m c := W5_v1 m ρ c
  rw [e0, e1, e2]

/-- THE RESULT ARRAY at the last boundary. -/
theorem result_eq (c : Dev nD) :
    (W7 m ρ c (Proc.devRef .tc main_v7) : S8192x1000.Idx → Elt Ideal .f32)
      = probArr (hiddenArr (m ((c : Thread nD τ).loc main_arg0)) (w1Arr m c) (b1Arr m c)) (w2Arr m c) (b2Arr m c) := by
  refine (W7_arr m ρ c 3).trans ((final1 (V6 m ρ) c).trans ?_)
  have e3 : (V6 m ρ c main_v3 : FVec Ideal S1024x4096 .bf16) = w2Arr m c :=
    (W6_of_ne m ρ c main_v3 (by decide)).trans (W5_v3 m ρ c)
  have e5 : (V6 m ρ c main_v5 : FVec Ideal S1x1024 .f32) = b2Arr m c :=
    (W6_of_ne m ρ c main_v5 (by decide)).trans (W5_v5 m ρ c)
  rw [hidden_eq m ρ c, e3, e5]

end Cert.KernelIdeal.Result

end
-- ==== Proof.RefSoftmax.lean ====
import proofs.«419465_j6064493822319_3_alg».proof.Proof.Gen.ReferenceIdeal.Read
import Idealize.ShloMosaic.Lib.ValueIdx
import Idealize.ShloMosaic.PureOps.Ideal.Laws

/-!
# The reference, row by row, over the extended reals

For row `r`: the hidden units `max (∑ₖ x[r,k]·w₁[j,k] + b₁[j]) 0`, the logits `∑ₖ hid[r,k]·w₂[q,k] + b₂[q]` of the 1000
classes, their running maximum `M` from the reduction's start value, and the entry `exp (logit q − M) / ∑ exp (logit − M)`.
Each generated stage is read at a row and a column; the maximum, which has no generated reading, is read as the running
maximum over the class axis.
-/

noncomputable section

namespace Cert.ReferenceIdeal.Rows

open Cert.ReferenceIdeal Cert.ReferenceIdeal.Gen Cert.ReferenceIdeal.Read Idealize.ShloMosaic Idealize.ShloMosaic.ValueIdx

variable (x0 : (⟨S8192x4096, .f32⟩ : BufTy).Contents (Elt Ideal)) (x1 : (⟨S4096x4096, .f32⟩ : BufTy).Contents (Elt Ideal))
  (x2 : (⟨S4096, .f32⟩ : BufTy).Contents (Elt Ideal)) (x3 : (⟨S1000x4096, .f32⟩ : BufTy).Contents (Elt Ideal))
  (x4 : (⟨S1000, .f32⟩ : BufTy).Contents (Elt Ideal))

/-- Hidden unit `j` of row `r`. -/
def hid (r : Fin 8192) (j : Fin 4096) : EReal :=
  max ((∑ k : Fin 4096, x0 (ix2 r k) * x1 (ix2 j k)) + x2 (ix1 j)) (FloatOps.ofBits (F := Ideal) .f32 0x00000000#32)
/-- The logit of class `q` in row `r`. -/
def logit (r : Fin 8192) (q : Fin 1000) : EReal :=
  (∑ k : Fin 4096, hid x0 x1 x2 r k * x3 (ix2 q k)) + x4 (ix1 q)
/-- The row's running maximum over the 1000 classes. -/
def rmax (r : Fin 8192) : EReal :=
  (Finset.univ : Finset (Fin 1000)).fold max (FloatOps.ofBits (F := Ideal) .f32 0xFF800000#32) (logit x0 x1 x2 x3 x4 r)
/-- The row's sum of exponentials. -/
def rsum (r : Fin 8192) : EReal :=
  ∑ q : Fin 1000, Ideal.exp (logit x0 x1 x2 x3 x4 r q - rmax x0 x1 x2 x3 x4 r)
/-- The softmax entry. -/
def soft (r : Fin 8192) (q : Fin 1000) : EReal :=
  Ideal.div (Ideal.exp (logit x0 x1 x2 x3 x4 r q - rmax x0 x1 x2 x3 x4 r)) (rsum x0 x1 x2 x3 x4 r)

/-! ## The composed index functions at a row and a column -/

theorem lidx0 (r : Fin 8192) (j k : Fin 4096) : lidx_main_v0 (ix2 r j) k = ix2 r k :=
  funext fun a => Fin.ext (by match a with | ⟨0, _⟩ => rfl | ⟨1, _⟩ => rfl)
theorem ridx0 (r : Fin 8192) (j k : Fin 4096) : ridx_main_v0 (ix2 r j) k = ix2 j k :=
  funext fun a => Fin.ext (by match a with | ⟨0, _⟩ => rfl | ⟨1, _⟩ => rfl)
theorem idx21 (r : Fin 8192) (j : Fin 4096) : idx_main_v1 (idx_main_v2 (ix2 r j)) = ix1 j :=
  funext fun a => Fin.ext (by match a with | ⟨0, _⟩ => rfl)
theorem lidx5 (r : Fin 8192) (q : Fin 1000) (k : Fin 4096) : lidx_main_v5 (ix2 r q) k = ix2 r k :=
  funext fun a => Fin.ext (by match a with | ⟨0, _⟩ => rfl | ⟨1, _⟩ => rfl)
theorem ridx5 (r : Fin 8192) (q : Fin 1000) (k : Fin 4096) : ridx_main_v5 (ix2 r q) k = ix2 q k :=
  funext fun a => Fin.ext (by match a with | ⟨0, _⟩ => rfl | ⟨1, _⟩ => rfl)
theorem idx76 (r : Fin 8192) (q : Fin 1000) : idx_main_v6 (idx_main_v7 (ix2 r q)) = ix1 q :=
  funext fun a => Fin.ext (by match a with | ⟨0, _⟩ => rfl)
theorem idx1312 (r : Fin 8192) (q : Fin 1000) : idx_main_v12 (idx_main_v13 (ix2 r q)) = ix1 r :=
  funext fun a => Fin.ext (by match a with | ⟨0, _⟩ => rfl)
theorem idx1817 (r : Fin 8192) (q : Fin 1000) : idx_main_v17 (idx_main_v18 (ix2 r q)) = ix1 r :=
  funext fun a => Fin.ext (by match a with | ⟨0, _⟩ => rfl)
theorem idx16 (r : Fin 8192) (k : Fin 1000) : idx_main_v16 (ix1 r) k = ix2 r k :=
  funext fun a => Fin.ext (by match a with | ⟨0, _⟩ => rfl | ⟨1, _⟩ => rfl)

/-! ## The stages -/

theorem v4_apply (r : Fin 8192) (j : Fin 4096) : val_main_v4 (F := Ideal) x0 x1 x2 (ix2 r j) = hid x0 x1 x2 r j := by
  rw [val_main_v4_apply, val_main_v3_apply, val_main_v0_apply, val_main_v2_apply, val_main_v1_apply, val_main_call0_v0_apply,
    val_main_call0_cst_apply, idx21]
  simp only [lidx0, ridx0]
  rfl

theorem v8_apply (r : Fin 8192) (q : Fin 1000) :
    val_main_v8 (F := Ideal) x0 x1 x2 x3 x4 (ix2 r q) = logit x0 x1 x2 x3 x4 r q := by
  rw [val_main_v8_apply, val_main_v5_apply, val_main_v7_apply, val_main_v6_apply, idx76]
  simp only [lidx5, ridx5, v4_apply]
  rfl

/-- The reduced index `r` with class `k` put back is (r, k). -/
theorem lift_row (h : S8192x1000.Reduces [1] S8192) (r : Fin 8192) (k : Fin (S8192x1000.size 1)) :
    h.lift (ix1 r) k = ix2 r (⟨k.val, k.isLt⟩ : Fin 1000) := by
  funext c; apply Fin.ext
  fin_cases c <;> rfl

theorem v11_apply (r : Fin 8192) : val_main_v11 (F := Ideal) x0 x1 x2 x3 x4 (ix1 r) = rmax x0 x1 x2 x3 x4 r := by
  have h : S8192x1000.Reduces [1] S8192 := by decide
  rw [val_main_v11_apply, val_main_v10_apply, val_main_cst_0_apply]
  unfold val_main_v9
  rw [Host.reduce_eq_fold_single FloatOps.maximumf _ _ reducesTo_S8192x1000_S8192_d1 h h_S_]
  have hf : (val_main_v8 (F := Ideal) x0 x1 x2 x3 x4 ∘ h.lift (ix1 r)) = fun k : Fin 1000 => logit x0 x1 x2 x3 x4 r k :=
    funext fun k => (congrArg (val_main_v8 (F := Ideal) x0 x1 x2 x3 x4) (lift_row h r k)).trans (v8_apply x0 x1 x2 x3 x4 r _)
  unfold rmax
  refine Eq.trans ?_ (congrArg (fun f => Finset.fold max (FloatOps.ofBits (F := Ideal) .f32 0xFF800000#32) f (Finset.univ : Finset (Fin 1000))) hf)
  exact max_eq_right ((Finset.le_fold_max _).mpr (Or.inl le_rfl))

theorem v15_apply (r : Fin 8192) (q : Fin 1000) :
    val_main_v15 (F := Ideal) x0 x1 x2 x3 x4 (ix2 r q) = Ideal.exp (logit x0 x1 x2 x3 x4 r q - rmax x0 x1 x2 x3 x4 r) := by
  rw [val_main_v15_apply, val_main_v14_apply, val_main_v13_apply, val_main_v12_apply, idx1312, v8_apply, v11_apply]
  rfl

theorem v16_apply (r : Fin 8192) : val_main_v16 (F := Ideal) x0 x1 x2 x3 x4 (ix1 r) = rsum x0 x1 x2 x3 x4 r := by
  rw [val_main_v16_apply, val_main_cst_1_apply]
  show Ideal.ofBits .f32 0x00000000#32 + _ = _
  rw [Ideal.ofBits_zero_f32, zero_add]
  unfold rsum
  exact Finset.sum_congr rfl fun k _ => by rw [idx16, v15_apply]

/-- THE REFERENCE'S RESULT at row `r`, class `q`. -/
theorem v19_apply (r : Fin 8192) (q : Fin 1000) :
    val_main_v19 (F := Ideal) x0 x1 x2 x3 x4 (ix2 r q) = soft x0 x1 x2 x3 x4 r q := by
  rw [val_main_v19_apply, val_main_v18_apply, val_main_v17_apply, idx1817, v15_apply, v16_apply]
  rfl

end Cert.ReferenceIdeal.Rows

end
-- ==== Proof.LibPaddedLanes.lean ====
import Mathlib.Data.Finset.Fold
import Mathlib.Algebra.BigOperators.Fin
import Mathlib.Data.Fin.Embedding

/-!
# Lanes padded with the neutral element

A row of `n` entries is often computed on `m ≥ n` lanes, the `m - n` extra lanes holding the neutral element of the
reduction that follows (zero before a sum, the bottom element before a maximum). The reduction over the `m` lanes is
then the reduction over the `n` entries. General: no program, any `n ≤ m`.
-/

namespace PaddedLanes

open Finset

/-- A sum over `m` lanes whose lanes from `n` on are zero is the sum over the first `n` lanes. -/
theorem sum_padded {M : Type*} [AddCommMonoid M] {n m : ℕ} (h : n ≤ m) (F : Fin m → M) (G : Fin n → M)
    (hlt : ∀ k : Fin n, F (Fin.castLE h k) = G k) (hge : ∀ k : Fin m, n ≤ k.val → F k = 0) :
    ∑ k, F k = ∑ k, G k := by
  rw [← Finset.sum_congr rfl (fun k _ => hlt k)]
  symm
  rw [show (∑ k : Fin n, F (Fin.castLE h k)) = ∑ k ∈ (Finset.univ : Finset (Fin n)).map (Fin.castLEEmb h), F k from
    (Finset.sum_map Finset.univ (Fin.castLEEmb h) F).symm]
  refine Finset.sum_subset (Finset.subset_univ _) fun k _ hk => hge k ?_
  by_contra hlt'
  exact hk (Finset.mem_map.mpr ⟨⟨k.val, by omega⟩, Finset.mem_univ _, Fin.ext rfl⟩)

/-- A running maximum from `b` over `m` lanes whose lanes from `n` on hold the bottom element is the running maximum
    from `b` over the first `n` lanes. -/
theorem fold_max_padded {α : Type*} [LinearOrder α] [OrderBot α] {n m : ℕ} (h : n ≤ m) (b : α) (F : Fin m → α)
    (G : Fin n → α) (hlt : ∀ k : Fin n, F (Fin.castLE h k) = G k) (hge : ∀ k : Fin m, n ≤ k.val → F k = ⊥) :
    (Finset.univ : Finset (Fin m)).fold max b F = (Finset.univ : Finset (Fin n)).fold max b G := by
  apply le_antisymm
  · rw [Finset.fold_max_le]
    refine ⟨(Finset.le_fold_max _).mpr (Or.inl le_rfl), fun k _ => ?_⟩
    by_cases hk : k.val < n
    · have e : F k = G ⟨k.val, hk⟩ := by rw [← hlt ⟨k.val, hk⟩]; exact congrArg F (Fin.ext rfl)
      rw [e]
      exact (Finset.le_fold_max _).mpr (Or.inr ⟨_, Finset.mem_univ _, le_rfl⟩)
    · rw [hge k (by omega)]; exact bot_le
  · rw [Finset.fold_max_le]
    refine ⟨(Finset.le_fold_max _).mpr (Or.inl le_rfl), fun k _ => ?_⟩
    rw [← hlt k]
    exact (Finset.le_fold_max _).mpr (Or.inr ⟨_, Finset.mem_univ _, le_rfl⟩)

/-- Taking the maximum of the start value with a running maximum from it changes nothing. -/
theorem max_fold_max {α : Type*} [LinearOrder α] {ι : Type*} (s : Finset ι) (b : α) (f : ι → α) :
    max b (s.fold max b f) = s.fold max b f :=
  max_eq_right ((Finset.le_fold_max _).mpr (Or.inl le_rfl))

end PaddedLanes
-- ==== Proof.Bridge.lean ====
import proofs.«419465_j6064493822319_3_alg».proof.Proof.KernelArrays
import proofs.«419465_j6064493822319_3_alg».proof.Proof.RefSoftmax
import proofs.«419465_j6064493822319_3_alg».proof.Proof.LibPaddedLanes
import Idealize.ShloMosaic.Lib.KernelVsHost
import Idealize.ShloMosaic.Lib.Pipeline.Value

/-!
# The two programs compute one function

Row by row. The kernel's hidden unit is the reference's (a change of float format is the identity, the bias row read at
column `j` is the bias at `j`). A lane below 1000 of the kernel's row holds the reference's logit (row `c` of the padded
weights is row `c` of the weights, entry `c` of the padded bias the bias's); the 24 lanes from 1000 on hold the bottom
element. So the running maximum over the 1024 lanes is the running maximum over the 1000 classes, the exponential of a
padded lane less the maximum is `exp ⊥ = 0`, the sum over the 1024 lanes is the sum over the 1000 classes, and the stored
entry is the reference's quotient. No finiteness is used: `⊥ - M = ⊥` for every extended real `M`.
-/

noncomputable section

namespace Cert.Proof.Bridge

open Cert.KernelIdeal Cert.KernelIdeal.Gen Cert.KernelIdeal.Body Cert.KernelIdeal.Arrays
open Idealize.ShloMosaic Idealize.ShloMosaic.ValueIdx

variable (x0 : S8192x4096.Idx → Elt Ideal .f32) (x1 : S4096x4096.Idx → Elt Ideal .f32) (x2 : S4096.Idx → Elt Ideal .f32)
  (x3 : S1000x4096.Idx → Elt Ideal .f32) (x4 : S1000.Idx → Elt Ideal .f32)

/-- The first weight matrix, converted. -/
def w1Of : FVec Ideal S4096x4096 .bf16 := truncf (F := Ideal) .bf16 x1 bitsLt_bf16_f32
/-- The first bias as a row. -/
def b1Of : FVec Ideal S1x4096 .f32 := shapeCast S1x4096 x2 shapeCasts_S4096_S1x4096
/-- The second weight matrix padded to 1024 rows, converted. -/
def w2Of : FVec Ideal S1024x4096 .bf16 :=
  truncf (F := Ideal) .bf16 (pad S1024x4096 ![0, 0] ![24, 0] ![0, 0] x3 (sitofp (F := Ideal) .f32 (constantI S_ 32 0#32))
    pads_S1000x4096_S1024x4096_0240_000 h_S_) bitsLt_bf16_f32
/-- The second bias padded to 1024 entries, as a row. -/
def b2Of : FVec Ideal S1x1024 .f32 :=
  shapeCast S1x1024 (pad S1024 ![0] ![24] ![0] x4 (sitofp (F := Ideal) .f32 (constantI S_ 32 0#32)) pads_S1000_S1024_0240 h_S_)
    shapeCasts_S1024_S1x1024

/-- The bias row at column `j` is the bias at `j`. -/
theorem b1Of_apply (j : Fin 4096) : b1Of x2 (ix2 0 j) = x2 (ix1 j) :=
  shapeCast_apply x2 shapeCasts_S4096_S1x4096 (ix2 0 j) (ix1 j) (by
    show (S4096.rowMajor (ix1 j)).val = (S1x4096.rowMajor (ix2 0 j)).val
    rw [Shape.rowMajor_val_one, Shape.rowMajor_val_two]
    show j.val = 0 * 4096 + j.val
    omega)

/-- Row `c < 1000` of the padded weights is row `c` of the weights. -/
theorem w2Of_apply (q : Fin 1000) (k : Fin 4096) : w2Of x3 (ix2 (Fin.castLE (by decide) q) k) = x3 (ix2 q k) :=
  pad_apply_of_inside ![0, 0] ![24, 0] ![0, 0] x3 _ pads_S1000x4096_S1024x4096_0240_000 h_S_ (ix2 (Fin.castLE (by decide) q) k) (ix2 q k)
    (fun a => match a with
      | ⟨0, _⟩ => by show q.val = 0 + q.val * (0 + 1); omega
      | ⟨1, _⟩ => by show k.val = 0 + k.val * (0 + 1); omega)

/-- Entry `c < 1000` of the padded bias row is the bias at `c`. -/
theorem b2Of_apply (q : Fin 1000) : b2Of x4 (ix2 0 (Fin.castLE (by decide) q)) = x4 (ix1 q) := by
  refine (shapeCast_apply _ shapeCasts_S1024_S1x1024 (ix2 0 (Fin.castLE (by decide) q)) (ix1 (Fin.castLE (by decide) q)) (by
    show (S1024.rowMajor (ix1 (Fin.castLE (by decide) q))).val = (S1x1024.rowMajor (ix2 0 (Fin.castLE (by decide) q))).val
    rw [Shape.rowMajor_val_one, Shape.rowMajor_val_two]
    show q.val = 0 * 1024 + q.val
    omega)).trans ?_
  exact pad_apply_of_inside ![0] ![24] ![0] x4 _ pads_S1000_S1024_0240 h_S_ (ix1 (Fin.castLE (by decide) q)) (ix1 q)
    (fun a => match a with
      | ⟨0, _⟩ => by show q.val = 0 + q.val * (0 + 1); omega)

/-- The kernel's hidden row is the reference's. -/
theorem hidden_row (r : Fin 8192) (j : Fin 4096) :
    hiddenArr x0 (w1Of x1) (b1Of x2) (ix2 r j) = Cert.ReferenceIdeal.Rows.hid x0 x1 x2 r j := by
  show max ((∑ k : Fin 4096, x0 (ix2 r k) * x1 (ix2 j k)) + b1Of x2 (ix2 0 j)) _ = _
  rw [b1Of_apply]
  rfl

/-- The hidden row the kernel's second layer reads. -/
abbrev hrow (r : Fin 8192) : Fin 4096 → EReal := fun k => hiddenArr x0 (w1Of x1) (b1Of x2) (ix2 r k)

/-- A lane below 1000 holds the reference's logit. -/
theorem lane_class (r : Fin 8192) (q : Fin 1000) :
    lane (hrow x0 x1 x2 r) (w2Of x3) (b2Of x4) (Fin.castLE (by decide) q) = Cert.ReferenceIdeal.Rows.logit x0 x1 x2 x3 x4 r q := by
  unfold lane
  rw [if_pos (show (Fin.castLE (by decide) q : Fin 1024).val < 1000 from q.isLt), b2Of_apply]
  unfold Cert.ReferenceIdeal.Rows.logit
  refine congrArg (· + x4 (ix1 q)) (Finset.sum_congr rfl fun k _ => ?_)
  rw [w2Of_apply]
  show hiddenArr x0 (w1Of x1) (b1Of x2) (ix2 r k) * _ = _
  rw [hidden_row]

/-- A lane from 1000 on holds the bottom element. -/
theorem lane_pad (r : Fin 8192) (c : Fin 1024) (hc : 1000 ≤ c.val) :
    lane (hrow x0 x1 x2 r) (w2Of x3) (b2Of x4) c = ⊥ := by
  unfold lane
  rw [if_neg (by omega)]

/-- The running maximum over the 1024 lanes is the one over the 1000 classes. -/
theorem rowMax_eq (r : Fin 8192) :
    rowMax (hrow x0 x1 x2 r) (w2Of x3) (b2Of x4) = Cert.ReferenceIdeal.Rows.rmax x0 x1 x2 x3 x4 r :=
  PaddedLanes.fold_max_padded (by decide : 1000 ≤ 1024) _ _ _ (fun q => lane_class x0 x1 x2 x3 x4 r q)
    (fun c hc => lane_pad x0 x1 x2 x3 x4 r c hc)

/-- The sum over the 1024 lanes is the one over the 1000 classes: a padded lane adds `exp ⊥ = 0`. -/
theorem rowSum_eq (r : Fin 8192) :
    rowSum (hrow x0 x1 x2 r) (w2Of x3) (b2Of x4) = Cert.ReferenceIdeal.Rows.rsum x0 x1 x2 x3 x4 r := by
  unfold rowSum Cert.ReferenceIdeal.Rows.rsum
  rw [rowMax_eq]
  refine PaddedLanes.sum_padded (by decide : 1000 ≤ 1024) _ _ (fun q => by rw [lane_class]) (fun c hc => ?_)
  rw [lane_pad x0 x1 x2 x3 x4 r c hc, EReal.bot_sub]
  exact Ideal.exp_bot

/-- THE BRIDGE: the kernel's result array, at row `r` and class `q`, is the reference's softmax entry. -/
theorem entry_eq (r : Fin 8192) (q : Fin 1000) :
    probArr (hiddenArr x0 (w1Of x1) (b1Of x2)) (w2Of x3) (b2Of x4) (ix2 r q) = Cert.ReferenceIdeal.Rows.soft x0 x1 x2 x3 x4 r q := by
  show entry (hrow x0 x1 x2 r) (w2Of x3) (b2Of x4) q = _
  unfold entry Cert.ReferenceIdeal.Rows.soft
  rw [lane_class, rowMax_eq, rowSum_eq]

/-- The same for the whole arrays: the kernel's result array is the reference's last stage. -/
theorem result_eq :
    probArr (hiddenArr x0 (w1Of x1) (b1Of x2)) (w2Of x3) (b2Of x4) = Cert.ReferenceIdeal.Read.val_main_v19 (F := Ideal) x0 x1 x2 x3 x4 := by
  funext i
  obtain ⟨r, q, rfl⟩ : ∃ (r : Fin 8192) (q : Fin 1000), i = ix2 r q := ⟨i 0, i 1, eq_ix2 i⟩
  rw [entry_eq]
  exact (Cert.ReferenceIdeal.Rows.v19_apply x0 x1 x2 x3 x4 r q).symm

end Cert.Proof.Bridge

end
-- ==== Proof.lean ====
/-
  A two-layer perceptron with a softmax head, `softmax (relu (x·W₁ᵀ + b₁)·W₂ᵀ + b₂)` over 8192 rows, 4096 inputs, 4096 hidden
  units and 1000 classes: two pipelined kernels (layer 1 with its bias and relu in 64 blocks of 128 rows; layer 2 with its
  bias and the softmax in 16 blocks of 512 rows) against the same function written with two einsums and `jax.nn.softmax`.

  The kernel computes the softmax on 1024 lanes: the second weight matrix and bias are padded with 24 zero rows, and the 24
  extra lanes of every row are overwritten before the row maximum by a fill the source spells `-1e30` and the statement names
  the bottom element (`neg_big`). Over the extended reals the row maximum over the 1024 lanes is then the maximum over the
  1000 classes, `exp (⊥ - M) = 0` whatever `M` is, so the row sum over the 1024 lanes is the sum over the 1000 classes, and
  the 1000 stored entries of a row are the reference's quotients. The changes of float format are the identity, a matrix
  product into a zero accumulator is the host's contraction, and no step needs the inputs finite.

  The frames of the two kernel programs and the reference's run are generated; so is the reading of the reference one
  operation at a time. The kernel program's run is taken once more with the result array kept (KernelRun); the result array
  is read off the last boundary through the two regions (KernelBody: the bodies at an index; KernelArrays: blocks to arrays;
  KernelValue: the host-made arrays and the composition), the reference's stages are folded into rows (RefSoftmax), and
  Bridge joins the two by the two facts about lanes padded with the neutral element (LibPaddedLanes).
-/
import proofs.«419465_j6064493822319_3_alg».proof.Defs
import proofs.«419465_j6064493822319_3_alg».proof.Proof.Gen.Kernel
import proofs.«419465_j6064493822319_3_alg».proof.Proof.Gen.Kernel.Skeleton
import proofs.«419465_j6064493822319_3_alg».proof.Proof.Gen.Kernel.Launch
import proofs.«419465_j6064493822319_3_alg».proof.Proof.Gen.Kernel.Points
import proofs.«419465_j6064493822319_3_alg».proof.Proof.Gen.Kernel.Frame
import proofs.«419465_j6064493822319_3_alg».proof.Proof.Gen.KernelIdeal
import proofs.«419465_j6064493822319_3_alg».proof.Proof.Gen.KernelIdeal.Skeleton
import proofs.«419465_j6064493822319_3_alg».proof.Proof.Gen.KernelIdeal.Launch
import proofs.«419465_j6064493822319_3_alg».proof.Proof.Gen.KernelIdeal.Points
import proofs.«419465_j6064493822319_3_alg».proof.Proof.Gen.KernelIdeal.Frame
import proofs.«419465_j6064493822319_3_alg».proof.Proof.Gen.ReferenceIdeal
import proofs.«419465_j6064493822319_3_alg».proof.Proof.Gen.ReferenceIdeal.Run
import proofs.«419465_j6064493822319_3_alg».proof.Proof.Gen.ReferenceIdeal.Read
import proofs.«419465_j6064493822319_3_alg».proof.Proof.Gen.Pre_finite_inputs
import proofs.«419465_j6064493822319_3_alg».proof.Proof.KernelRun
import proofs.«419465_j6064493822319_3_alg».proof.Proof.KernelValue
import proofs.«419465_j6064493822319_3_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: the fill `-1e30` of the padded lanes is named the bottom element. -/
theorem preserves : Cert.preserves_Kernel_KernelIdeal :=
  IdealRules.named_const.statement Cert.KernelIdeal.κ "neg_big" .f32 0xF149F2CA#32 ⊥ rfl

/-- Over the extended reals the kernel's result array, read off its run, and the reference's last stage are one function
    of arguments that agree. -/
theorem algebraic : Cert.algebraic_KernelIdeal_ReferenceIdeal := by
  intro m ρ m' ρ' _ hagree
  refine ⟨fun c => Cert.KernelIdeal.Gen.W7 m ρ c (Proc.devRef .tc Cert.KernelIdeal.main_v7),
    Cert.KernelIdeal.GenRun.run_main (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v19_eq (F := Ideal) _ _ _ _ _).trans ?_
  obtain ⟨a0, a1, a2, a3, a4⟩ := hagree c
  rw [a0, a1, a2, a3, a4]
  exact ((Cert.KernelIdeal.Result.result_eq m ρ c).trans
    (Cert.Proof.Bridge.result_eq (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
